-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x128 : Shape := ⟨2, ![1024, 128]⟩
abbrev S128x320 : Shape := ⟨2, ![128, 320]⟩
abbrev S320 : Shape := ⟨1, ![320]⟩
abbrev S320x128 : Shape := ⟨2, ![320, 128]⟩
abbrev S_ : Shape := ⟨0, ![]⟩

class Facts : Prop where
  bcast_S_S1024x128 : S_.BroadcastsInDim S1024x128 (![] : Fin 0 → Fin S1024x128.rank)
  reducesTo_S1024x128_S_d0_1 : S1024x128.ReducesTo [0, 1] S_
  h_S_ : 0 < S_.numel
  bcast_S_S128x320 : S_.BroadcastsInDim S128x320 (![] : Fin 0 → Fin S128x320.rank)
  reducesTo_S128x320_S_d0_1 : S128x320.ReducesTo [0, 1] S_
  bcast_S_S320 : S_.BroadcastsInDim S320 (![] : Fin 0 → Fin S320.rank)
  reducesTo_S320_S_d0 : S320.ReducesTo [0] S_
  bcast_S_S320x128 : S_.BroadcastsInDim S320x128 (![] : Fin 0 → Fin S320x128.rank)
  reducesTo_S320x128_S_d0_1 : S320x128.ReducesTo [0, 1] S_

variable [Facts]

def fn_part1 {F : FTy → Type} [FloatOps F] (main_arg4 : FVec F S320 .f32) (main_v13 : IVec S_ 1) (main_v16 : IVec S320x128 1) : IVec S_ 1 :=
  let main_c_5 : IVec S_ 1 := constantI S_ 1 1#1
  let main_v17 : IVec S_ 1 := (fun x v => Host.reduce IntOp.andi x v reducesTo_S320x128_S_d0_1 h_S_) main_v16 main_c_5
  let main_v18 : IVec S_ 1 := andi main_v13 main_v17
  let main_v19 : FVec F S320 .f32 := Host.absf main_arg4
  let main_cst_6 : FVec F S_ .f32 := constant S_ .f32 0x7F800000#32
  let main_v20 : FVec F S320 .f32 := broadcastInDim S320 ![] bcast_S_S320 main_cst_6
  let main_v21 : IVec S320 1 := cmpf .olt main_v19 main_v20
  let main_c_7 : IVec S_ 1 := constantI S_ 1 1#1
  let main_v22 : IVec S_ 1 := (fun x v => Host.reduce IntOp.andi x v reducesTo_S320_S_d0 h_S_) main_v21 main_c_7
  let main_v23 : IVec S_ 1 := andi main_v18 main_v22
  main_v23

def fn {F : FTy → Type} [FloatOps F] (main_arg0 : FVec F S1024x128 .f32) (main_arg1 : FVec F S128x320 .f32) (main_arg2 : FVec F S320 .f32) (main_arg3 : FVec F S320x128 .f32) (main_arg4 : FVec F S320 .f32) : IVec S_ 1 :=
  let main_v0 : FVec F S1024x128 .f32 := Host.absf main_arg0
  let main_cst : FVec F S_ .f32 := constant S_ .f32 0x7F800000#32
  let main_v1 : FVec F S1024x128 .f32 := broadcastInDim S1024x128 ![] bcast_S_S1024x128 main_cst
  let main_v2 : IVec S1024x128 1 := cmpf .olt main_v0 main_v1
  let main_c : IVec S_ 1 := constantI S_ 1 1#1
  let main_v3 : IVec S_ 1 := (fun x v => Host.reduce IntOp.andi x v reducesTo_S1024x128_S_d0_1 h_S_) main_v2 main_c
  let main_v4 : FVec F S128x320 .f32 := Host.absf main_arg1
  let main_cst_0 : FVec F S_ .f32 := constant S_ .f32 0x7F800000#32
  let main_v5 : FVec F S128x320 .f32 := broadcastInDim S128x320 ![] bcast_S_S128x320 main_cst_0
  let main_v6 : IVec S128x320 1 := cmpf .olt main_v4 main_v5
  let main_c_1 : IVec S_ 1 := constantI S_ 1 1#1
  let main_v7 : IVec S_ 1 := (fun x v => Host.reduce IntOp.andi x v reducesTo_S128x320_S_d0_1 h_S_) main_v6 main_c_1
  let main_v8 : IVec S_ 1 := andi main_v3 main_v7
  let main_v9 : FVec F S320 .f32 := Host.absf main_arg2
  let main_cst_2 : FVec F S_ .f32 := constant S_ .f32 0x7F800000#32
  let main_v10 : FVec F S320 .f32 := broadcastInDim S320 ![] bcast_S_S320 main_cst_2
  let main_v11 : IVec S320 1 := cmpf .olt main_v9 main_v10
  let main_c_3 : IVec S_ 1 := constantI S_ 1 1#1
  let main_v12 : IVec S_ 1 := (fun x v => Host.reduce IntOp.andi x v reducesTo_S320_S_d0 h_S_) main_v11 main_c_3
  let main_v13 : IVec S_ 1 := andi main_v8 main_v12
  let main_v14 : FVec F S320x128 .f32 := Host.absf main_arg3
  let main_cst_4 : FVec F S_ .f32 := constant S_ .f32 0x7F800000#32
  let main_v15 : FVec F S320x128 .f32 := broadcastInDim S320x128 ![] bcast_S_S320x128 main_cst_4
  let main_v16 : IVec S320x128 1 := cmpf .olt main_v14 main_v15
  fn_part1 (F := F) main_arg4 main_v13 main_v16
-- ==== Kernel.lean ====
abbrev S1024x128 : Shape := ⟨2, ![1024, 128]⟩
abbrev S128x320 : Shape := ⟨2, ![128, 320]⟩
abbrev S320 : Shape := ⟨1, ![320]⟩
abbrev S320x128 : Shape := ⟨2, ![320, 128]⟩
abbrev S320x1 : Shape := ⟨2, ![320, 1]⟩
abbrev S1x320 : Shape := ⟨2, ![1, 320]⟩
abbrev S1024x102400 : Shape := ⟨2, ![1024, 102400]⟩
abbrev S8x128 : Shape := ⟨2, ![8, 128]⟩
abbrev S8x1 : Shape := ⟨2, ![8, 1]⟩
abbrev S1024x2560 : Shape := ⟨2, ![1024, 2560]⟩
abbrev S1024x8 : Shape := ⟨2, ![1024, 8]⟩
abbrev S8 : Shape := ⟨1, ![8]⟩
abbrev S1x8 : Shape := ⟨2, ![1, 8]⟩
abbrev S1024x320 : Shape := ⟨2, ![1024, 320]⟩
abbrev S1024x1 : Shape := ⟨2, ![1024, 1]⟩

abbrev nBuf : Space → Nat
  | .hbm => 9
  | .vmem => 9
  | .smem => 0
  | _ => 0

abbrev bufTy : (tb : Table) → Fin (tcTables nBuf tb) → BufTy
  | .hbm, ⟨0, _⟩ => ⟨S1024x128, .f32⟩
  | .hbm, ⟨1, _⟩ => ⟨S128x320, .f32⟩
  | .hbm, ⟨2, _⟩ => ⟨S320, .f32⟩
  | .hbm, ⟨3, _⟩ => ⟨S320x128, .f32⟩
  | .hbm, ⟨4, _⟩ => ⟨S320, .f32⟩
  | .hbm, ⟨5, _⟩ => ⟨S320x128, .f32⟩
  | .hbm, ⟨6, _⟩ => ⟨S320x1, .f32⟩
  | .hbm, ⟨7, _⟩ => ⟨S1x320, .f32⟩
  | .hbm, ⟨8, _⟩ => ⟨S1024x102400, .f32⟩
  | .local _ .vmem, ⟨0, _⟩ => ⟨S1024x128, .f32⟩
  | .local _ .vmem, ⟨1, _⟩ => ⟨S8x128, .f32⟩
  | .local _ .vmem, ⟨2, _⟩ => ⟨S8x128, .f32⟩
  | .local _ .vmem, ⟨3, _⟩ => ⟨S8x1, .f32⟩
  | .local _ .vmem, ⟨4, _⟩ => ⟨S8x1, .f32⟩
  | .local _ .vmem, ⟨5, _⟩ => ⟨S320x128, .f32⟩
  | .local _ .vmem, ⟨6, _⟩ => ⟨S1x320, .f32⟩
  | .local _ .vmem, ⟨7, _⟩ => ⟨S1024x2560, .f32⟩
  | .local _ .vmem, ⟨8, _⟩ => ⟨S1024x2560, .f32⟩
  | _, _ => ⟨S1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![40], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1024x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S320x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x320 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x2560 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  transposes_S128x320_S320x128_1_0 : S128x320.Transposes [1, 0] S320x128
  shapeCasts_S320_S320x1 : S320.ShapeCasts S320x1
  shapeCasts_S320_S1x320 : S320.ShapeCasts S1x320
  inb_S1024x128_S1024x128_0_0 : ∀ a, (![0, 0] : Fin 2 → Nat) a + S1024x128.size a ≤ S1024x128.size a
  h_S1024x128 : 0 < S1024x128.numel
  bitsLt_bf16_f32 : FTy.bits .bf16 < FTy.bits .f32
  inb_S8x128_S8x128_0_0 : ∀ a, (![0, 0] : Fin 2 → Nat) a + S8x128.size a ≤ S8x128.size a
  h_S8x128 : 0 < S8x128.numel
  shapeCasts_S8x128_S8x128 : S8x128.ShapeCasts S8x128
  inb_S8x1_S8x1_0_0 : ∀ a, (![0, 0] : Fin 2 → Nat) a + S8x1.size a ≤ S8x1.size a
  h_S8x1 : 0 < S8x1.numel
  shapeCasts_S8x1_S8x1 : S8x1.ShapeCasts S8x1
  shapeCasts_S8x1_S8 : S8x1.ShapeCasts S8
  shapeCasts_S8_S1x8 : S8.ShapeCasts S1x8
  broadcasts_S1x8_S1024x8 : S1x8.Broadcasts S1024x8
  inb_S320x128_S320x128_0_0 : ∀ a, (![0, 0] : Fin 2 → Nat) a + S320x128.size a ≤ S320x128.size a
  h_S320x128 : 0 < S320x128.numel
  inb_S1x320_S1x320_0_0 : ∀ a, (![0, 0] : Fin 2 → Nat) a + S1x320.size a ≤ S1x320.size a
  h_S1x320 : 0 < S1x320.numel
  shapeCasts_S1x320_S1x320 : S1x320.ShapeCasts S1x320
  broadcasts_S1x320_S1024x320 : S1x320.Broadcasts S1024x320
  slices_S1024x8_o0_0_S1024x1 : S1024x8.Slices ![0, 0] S1024x1
  broadcasts_S1024x1_S1024x320 : S1024x1.Broadcasts S1024x320
  inb_S1024x2560_S1024x320_0_0 : ∀ a, (![0, 0] : Fin 2 → Nat) a + S1024x320.size a ≤ S1024x2560.size a
  h_S1024x320 : 0 < S1024x320.numel
  slices_S1024x8_o0_1_S1024x1 : S1024x8.Slices ![0, 1] S1024x1
  inb_S1024x2560_S1024x320_0_320 : ∀ a, (![0, 320] : Fin 2 → Nat) a + S1024x320.size a ≤ S1024x2560.size a
  slices_S1024x8_o0_2_S1024x1 : S1024x8.Slices ![0, 2] S1024x1
  inb_S1024x2560_S1024x320_0_640 : ∀ a, (![0, 640] : Fin 2 → Nat) a + S1024x320.size a ≤ S1024x2560.size a
  slices_S1024x8_o0_3_S1024x1 : S1024x8.Slices ![0, 3] S1024x1
  inb_S1024x2560_S1024x320_0_960 : ∀ a, (![0, 960] : Fin 2 → Nat) a + S1024x320.size a ≤ S1024x2560.size a
  slices_S1024x8_o0_4_S1024x1 : S1024x8.Slices ![0, 4] S1024x1
  inb_S1024x2560_S1024x320_0_1280 : ∀ a, (![0, 1280] : Fin 2 → Nat) a + S1024x320.size a ≤ S1024x2560.size a
  slices_S1024x8_o0_5_S1024x1 : S1024x8.Slices ![0, 5] S1024x1
  inb_S1024x2560_S1024x320_0_1600 : ∀ a, (![0, 1600] : Fin 2 → Nat) a + S1024x320.size a ≤ S1024x2560.size a
  slices_S1024x8_o0_6_S1024x1 : S1024x8.Slices ![0, 6] S1024x1
  inb_S1024x2560_S1024x320_0_1920 : ∀ a, (![0, 1920] : Fin 2 → Nat) a + S1024x320.size a ≤ S1024x2560.size a
  slices_S1024x8_o0_7_S1024x1 : S1024x8.Slices ![0, 7] S1024x1
  inb_S1024x2560_S1024x320_0_2240 : ∀ a, (![0, 2240] : Fin 2 → Nat) a + S1024x320.size a ≤ S1024x2560.size a
  dot_S1024x128_S8x128_S1024x8_1_1_0_0_n_n_wf : DotDims.WF S1024x128 S8x128 S1024x8 [1] [1] [0] [0] [] []
  dot_S1024x128_S320x128_S1024x320_1_1_0_0_n_n_wf : DotDims.WF S1024x128 S320x128 S1024x320 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S1024x128.size a
  hwx0_0 : ∀ i : grid0.Coords, EltTy.bits .f32 = 32 ∨ (Rect.block (s := S1024x128) S1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x128.size a ≤ S320x128.size a
  hwx0_1 : ∀ i : grid0.Coords, EltTy.bits .f32 = 32 ∨ (Rect.block (s := S320x128) S8x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x1.size a ≤ S320x1.size a
  hwx0_2 : ∀ i : grid0.Coords, EltTy.bits .f32 = 32 ∨ (Rect.block (s := S320x1) S8x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S320x128.size a ≤ S320x128.size a
  hwx0_3 : ∀ i : grid0.Coords, EltTy.bits .f32 = 32 ∨ (Rect.block (s := S320x128) S320x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x320.size a ≤ S1x320.size a
  hwx0_4 : ∀ i : grid0.Coords, EltTy.bits .f32 = 32 ∨ (Rect.block (s := S1x320) S1x320.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x2560.size a ≤ S1024x102400.size a
  hwx0_5 : ∀ i : grid0.Coords, EltTy.bits .f32 = 32 ∨ (Rect.block (s := S1024x102400) S1024x2560.size (cc0_transform_5 i) (hinb0_5 i)).WholeWords (EltTy.packing .f32)

variable [Facts₀]

def dot_S1024x128_S8x128_S1024x8_1_1_0_0_n_n : DotDims S1024x128 S8x128 S1024x8 where
  lhsContracting := [1]
  rhsContracting := [1]
  lhsNonContracting := [0]
  rhsNonContracting := [0]
  lhsBatch := []
  rhsBatch := []
  wf := dot_S1024x128_S8x128_S1024x8_1_1_0_0_n_n_wf
def dot_S1024x128_S320x128_S1024x320_1_1_0_0_n_n : DotDims S1024x128 S320x128 S1024x320 where
  lhsContracting := [1]
  rhsContracting := [1]
  lhsNonContracting := [0]
  rhsNonContracting := [0]
  lhsBatch := []
  rhsBatch := []
  wf := dot_S1024x128_S320x128_S1024x320_1_1_0_0_n_n_wf

abbrev win0_0 : Pipeline.Window sig grid0 :=
  Pipeline.Window.ofSpec (Memref.whole main_arg0) S1024x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v0) S8x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S8x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S320x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x320.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1024x2560.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S1024x128 : Shape := ⟨2, ![1024, 128]⟩
abbrev S128x320 : Shape := ⟨2, ![128, 320]⟩
abbrev S320 : Shape := ⟨1, ![320]⟩
abbrev S320x128 : Shape := ⟨2, ![320, 128]⟩
abbrev S1024x320 : Shape := ⟨2, ![1024, 320]⟩
abbrev S1x320 : Shape := ⟨2, ![1, 320]⟩
abbrev S_ : Shape := ⟨0, ![]⟩
abbrev S320x1 : Shape := ⟨2, ![320, 1]⟩
abbrev S1024x320x1 : Shape := ⟨3, ![1024, 320, 1]⟩
abbrev S1024x1x320 : Shape := ⟨3, ![1024, 1, 320]⟩
abbrev S1024x320x320 : Shape := ⟨3, ![1024, 320, 320]⟩
abbrev S1024x102400 : Shape := ⟨2, ![1024, 102400]⟩

abbrev nBuf : Space → Nat
  | .hbm => 30
  | .vmem => 0
  | .smem => 0
  | _ => 0

abbrev bufTy : (tb : Table) → Fin (tcTables nBuf tb) → BufTy
  | .hbm, ⟨0, _⟩ => ⟨S1024x128, .f32⟩
  | .hbm, ⟨1, _⟩ => ⟨S128x320, .f32⟩
  | .hbm, ⟨2, _⟩ => ⟨S320, .f32⟩
  | .hbm, ⟨3, _⟩ => ⟨S320x128, .f32⟩
  | .hbm, ⟨4, _⟩ => ⟨S320, .f32⟩
  | .hbm, ⟨5, _⟩ => ⟨S320, .i32⟩
  | .hbm, ⟨6, _⟩ => ⟨S1024x320, .f32⟩
  | .hbm, ⟨7, _⟩ => ⟨S1x320, .f32⟩
  | .hbm, ⟨8, _⟩ => ⟨S1024x320, .f32⟩
  | .hbm, ⟨9, _⟩ => ⟨S1024x320, .f32⟩
  | .hbm, ⟨10, _⟩ => ⟨S128x320, .f32⟩
  | .hbm, ⟨11, _⟩ => ⟨S1024x320, .f32⟩
  | .hbm, ⟨12, _⟩ => ⟨S_, .i32⟩
  | .hbm, ⟨13, _⟩ => ⟨S320, .i32⟩
  | .hbm, ⟨14, _⟩ => ⟨S320, .i1⟩
  | .hbm, ⟨15, _⟩ => ⟨S_, .i32⟩
  | .hbm, ⟨16, _⟩ => ⟨S320, .i32⟩
  | .hbm, ⟨17, _⟩ => ⟨S320, .i32⟩
  | .hbm, ⟨18, _⟩ => ⟨S320, .i32⟩
  | .hbm, ⟨19, _⟩ => ⟨S320x1, .i32⟩
  | .hbm, ⟨20, _⟩ => ⟨S320, .f32⟩
  | .hbm, ⟨21, _⟩ => ⟨S1x320, .f32⟩
  | .hbm, ⟨22, _⟩ => ⟨S1024x320, .f32⟩
  | .hbm, ⟨23, _⟩ => ⟨S1024x320, .f32⟩
  | .hbm, ⟨24, _⟩ => ⟨S1024x320x1, .f32⟩
  | .hbm, ⟨25, _⟩ => ⟨S1024x1x320, .f32⟩
  | .hbm, ⟨26, _⟩ => ⟨S1024x320x320, .f32⟩
  | .hbm, ⟨27, _⟩ => ⟨S1024x320x320, .f32⟩
  | .hbm, ⟨28, _⟩ => ⟨S1024x320x320, .f32⟩
  | .hbm, ⟨29, _⟩ => ⟨S1024x102400, .f32⟩
  | _, _ => ⟨S1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_v7 : Ref sig .tc := ⟨.hbm, 13, rfl⟩
abbrev main_v8 : Ref sig .tc := ⟨.hbm, 14, rfl⟩
abbrev main_c_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩

abbrev nD : Nat := 1
abbrev τ : Topo := Topo.v7x

variable {F : FTy → Type} [FloatOps F]

class Facts₀ : Prop where
  bcast_S320_S1x320_1 : S320.BroadcastsInDim S1x320 (![1] : Fin 1 → Fin S1x320.rank)
  bcast_S1x320_S1024x320_0_1 : S1x320.BroadcastsInDim S1024x320 (![0, 1] : Fin 2 → Fin S1024x320.rank)
  transposes_S320x128_S128x320_1_0 : S320x128.Transposes [1, 0] S128x320
  bcast_S_S320 : S_.BroadcastsInDim S320 (![] : Fin 0 → Fin S320.rank)
  bcast_S320_S320x1_0 : S320.BroadcastsInDim S320x1 (![0] : Fin 1 → Fin S320x1.rank)
  bcast_S1024x320_S1024x320x1_0_1 : S1024x320.BroadcastsInDim S1024x320x1 (![0, 1] : Fin 2 → Fin S1024x320x1.rank)
  bcast_S1024x320_S1024x1x320_0_2 : S1024x320.BroadcastsInDim S1024x1x320 (![0, 2] : Fin 2 → Fin S1024x1x320.rank)
  bcast_S1024x320x1_S1024x320x320_0_1_2 : S1024x320x1.BroadcastsInDim S1024x320x320 (![0, 1, 2] : Fin 3 → Fin S1024x320x320.rank)
  bcast_S1024x1x320_S1024x320x320_0_1_2 : S1024x1x320.BroadcastsInDim S1024x320x320 (![0, 1, 2] : Fin 3 → Fin S1024x320x320.rank)
  shapeCasts_S1024x320x320_S1024x102400 : S1024x320x320.ShapeCasts S1024x102400
  dot_S1024x128_S128x320_S1024x320_1_0_0_1_n_n_wf : DotDims.WF S1024x128 S128x320 S1024x320 [1] [0] [0] [1] [] []
  gather_S320_S320x1_S320_n_0_n_n_0_1_1_wf : GatherDims.WF S320 S320x1 S320 [] [0] [] [0] [] 1 ![1]

variable [Facts₀]

def dot_S1024x128_S128x320_S1024x320_1_0_0_1_n_n : DotDims S1024x128 S128x320 S1024x320 where
  lhsContracting := [1]
  rhsContracting := [0]
  lhsNonContracting := [0]
  rhsNonContracting := [1]
  lhsBatch := []
  rhsBatch := []
  wf := dot_S1024x128_S128x320_S1024x320_1_0_0_1_n_n_wf
def gather_S320_S320x1_S320_n_0_n_n_0_1_1 : GatherDims S320 S320x1 S320 where
  offsetDims := []
  collapsedSliceDims := [0]
  operandBatchingDims := []
  startIndicesBatchingDims := []
  startIndexMap := [0]
  indexVectorDim := 1
  sliceSizes := ![1]
  wf := gather_S320_S320x1_S320_n_0_n_n_0_1_1_wf

class Facts : Prop extends Facts₀ where

variable [Facts]
-- ==== Proof.LibMatmulNT.lean ====
/-
  A matrix product against a transposed right operand, into a zero accumulator, read at one entry over the extended
  reals.

  When the dimension numbers contract the SECOND axis of both operands (no batch axis) — the left operand an [A × K]
  matrix read at (row, k), the right a [B × K] matrix read at (column, k) — entry (p, q) of the product is
  `∑ₖ l[p, k] · r[q, k]`: the product of `l` with the transpose of `r`. Where the dimension numbers read their operands
  is taken as four hypotheses, one per operand axis, so the lemma serves any printed record of this kind.
-/
import Idealize.ShloMosaic.PureOps.Ideal.Laws
import Idealize.ShloMosaic.Lib.ValueIdx

noncomputable section

namespace Idealize.ShloMosaic.MatmulNT

open Idealize.ShloMosaic Idealize.ShloMosaic.ValueIdx

/-- Entry (p, q) of `l · rᵀ` accumulated into zero is the sum over the contracted axis of `l[p, k] · r[q, k]`, for
    dimension numbers `D` with one contracted axis of extent `K` (`hr`, `hs`) which read the left operand at
    (row, k) (`hl0`, `hl1`) and the right operand at (column, k) (`hr0`, `hr1`). -/
theorem matmul_zero_at {A K B : Nat} {φ₁ φ₂ : FTy}
    (D : DotDims (⟨2, ![A, K]⟩ : Shape) (⟨2, ![B, K]⟩ : Shape) (⟨2, ![A, B]⟩ : Shape))
    (hr : D.contr.rank = 1) (hs : D.contr.size ⟨0, by omega⟩ = K)
    (hl0 : ∀ (i : (⟨2, ![A, B]⟩ : Shape).Idx) (q : D.contr.Idx), (D.lhsIdx i q 0).val = (i 0).val)
    (hl1 : ∀ (i : (⟨2, ![A, B]⟩ : Shape).Idx) (q : D.contr.Idx), (D.lhsIdx i q 1).val = (q ⟨0, by omega⟩).val)
    (hr0 : ∀ (i : (⟨2, ![A, B]⟩ : Shape).Idx) (q : D.contr.Idx), (D.rhsIdx i q 0).val = (i 1).val)
    (hr1 : ∀ (i : (⟨2, ![A, B]⟩ : Shape).Idx) (q : D.contr.Idx), (D.rhsIdx i q 1).val = (q ⟨0, by omega⟩).val)
    (prec : Option ContractPrecision) (l : FVec Ideal (⟨2, ![A, K]⟩ : Shape) φ₁) (r : FVec Ideal (⟨2, ![B, K]⟩ : Shape) φ₂)
    (p : Fin A) (q : Fin B) :
    FloatOps.matmul D prec l r (constant (F := Ideal) (⟨2, ![A, B]⟩ : Shape) .f32 0x00000000#32) (ix2 p q)
      = ∑ k : Fin K, l (ix2 p k) * r (ix2 q k) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 q k := funext fun a => Fin.ext (by
    match a with
    | ⟨0, _⟩ => exact hr0 _ _
    | ⟨1, _⟩ => exact (hr1 _ _).trans hk)
  rw [el, er]

end Idealize.ShloMosaic.MatmulNT

end
-- ==== Proof.KernelBody.lean ====
/-
  The kernel body's two computed values, entry by entry, over the extended reals.

  At one grid point the body holds the whole activation matrix `x` [1024 × 128], eight rows of the transposed class
  weights `w` [8 × 128] with their eight biases `β` [8 × 1], the within-class weights `u` [320 × 128] and their bias row
  `γ` [1 × 320]. It forms

    * the eight class logits of every batch row:   T[b, c] = ∑ₕ x[b, h] · w[c, h] + β[c, 0],
    * the within-class logits of every batch row:  U[b, k] = ∑ₕ x[b, h] · u[k, h] + γ[0, k].

  Both products contract the second axis of both operands (a product with a transposed right operand); the narrowing
  of the operands to bf16 is the identity on the extended reals, the accumulator is zero, and the bias is laid over
  the rows by shape casts and a broadcast that only re-index it.
-/
import proofs.«181187_j18133351924188_1_alg».proof.Proof.Gen.KernelIdeal.Skeleton
import proofs.«181187_j18133351924188_1_alg».proof.Proof.LibMatmulNT
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Body

open Cert.KernelIdeal Cert.KernelIdeal.Gen Idealize.ShloMosaic Idealize.ShloMosaic.ValueIdx

/-! ## Where the two products read their operands -/

theorem topdot_lhs_0 (i : S1024x8.Idx) (q : dot_S1024x128_S8x128_S1024x8_1_1_0_0_n_n.contr.Idx) :
    (dot_S1024x128_S8x128_S1024x8_1_1_0_0_n_n.lhsIdx i q 0).val = (i 0).val := by
  unfold DotDims.lhsIdx
  rw [dif_neg (show ¬(0 : Fin S1024x128.rank) ∈ dot_S1024x128_S8x128_S1024x8_1_1_0_0_n_n.lhsBatch by decide), dif_pos (show (0 : Fin S1024x128.rank) ∈ dot_S1024x128_S8x128_S1024x8_1_1_0_0_n_n.lhsNonContracting by decide)]
  rfl
theorem topdot_lhs_1 (i : S1024x8.Idx) (q : dot_S1024x128_S8x128_S1024x8_1_1_0_0_n_n.contr.Idx) :
    (dot_S1024x128_S8x128_S1024x8_1_1_0_0_n_n.lhsIdx i q 1).val = (q ⟨0, by decide⟩).val :=
  dot_S1024x128_S8x128_S1024x8_1_1_0_0_n_n.lhsIdx_val_of_single rfl i q
theorem topdot_rhs_0 (i : S1024x8.Idx) (q : dot_S1024x128_S8x128_S1024x8_1_1_0_0_n_n.contr.Idx) :
    (dot_S1024x128_S8x128_S1024x8_1_1_0_0_n_n.rhsIdx i q 0).val = (i 1).val := by
  unfold DotDims.rhsIdx
  rw [dif_neg (show ¬(0 : Fin S8x128.rank) ∈ dot_S1024x128_S8x128_S1024x8_1_1_0_0_n_n.rhsBatch by decide), dif_pos (show (0 : Fin S8x128.rank) ∈ dot_S1024x128_S8x128_S1024x8_1_1_0_0_n_n.rhsNonContracting by decide)]
  rfl
theorem topdot_rhs_1 (i : S1024x8.Idx) (q : dot_S1024x128_S8x128_S1024x8_1_1_0_0_n_n.contr.Idx) :
    (dot_S1024x128_S8x128_S1024x8_1_1_0_0_n_n.rhsIdx i q 1).val = (q ⟨0, by decide⟩).val :=
  dot_S1024x128_S8x128_S1024x8_1_1_0_0_n_n.rhsIdx_val_of_single rfl i q

theorem botdot_lhs_0 (i : S1024x320.Idx) (q : dot_S1024x128_S320x128_S1024x320_1_1_0_0_n_n.contr.Idx) :
    (dot_S1024x128_S320x128_S1024x320_1_1_0_0_n_n.lhsIdx i q 0).val = (i 0).val := by
  unfold DotDims.lhsIdx
  rw [dif_neg (show ¬(0 : Fin S1024x128.rank) ∈ dot_S1024x128_S320x128_S1024x320_1_1_0_0_n_n.lhsBatch by decide), dif_pos (show (0 : Fin S1024x128.rank) ∈ dot_S1024x128_S320x128_S1024x320_1_1_0_0_n_n.lhsNonContracting by decide)]
  rfl
theorem botdot_lhs_1 (i : S1024x320.Idx) (q : dot_S1024x128_S320x128_S1024x320_1_1_0_0_n_n.contr.Idx) :
    (dot_S1024x128_S320x128_S1024x320_1_1_0_0_n_n.lhsIdx i q 1).val = (q ⟨0, by decide⟩).val :=
  dot_S1024x128_S320x128_S1024x320_1_1_0_0_n_n.lhsIdx_val_of_single rfl i q
theorem botdot_rhs_0 (i : S1024x320.Idx) (q : dot_S1024x128_S320x128_S1024x320_1_1_0_0_n_n.contr.Idx) :
    (dot_S1024x128_S320x128_S1024x320_1_1_0_0_n_n.rhsIdx i q 0).val = (i 1).val := by
  unfold DotDims.rhsIdx
  rw [dif_neg (show ¬(0 : Fin S320x128.rank) ∈ dot_S1024x128_S320x128_S1024x320_1_1_0_0_n_n.rhsBatch by decide), dif_pos (show (0 : Fin S320x128.rank) ∈ dot_S1024x128_S320x128_S1024x320_1_1_0_0_n_n.rhsNonContracting by decide)]
  rfl
theorem botdot_rhs_1 (i : S1024x320.Idx) (q : dot_S1024x128_S320x128_S1024x320_1_1_0_0_n_n.contr.Idx) :
    (dot_S1024x128_S320x128_S1024x320_1_1_0_0_n_n.rhsIdx i q 1).val = (q ⟨0, by decide⟩).val :=
  dot_S1024x128_S320x128_S1024x320_1_1_0_0_n_n.rhsIdx_val_of_single rfl i q

/-- The class product at (b, c): `∑ₕ l[b, h] · r[c, h]`. -/
theorem topdot_at (l : FVec Ideal S1024x128 .bf16) (r : FVec Ideal S8x128 .bf16) (b : Fin 1024) (c : Fin 8) :
    matmul dot_S1024x128_S8x128_S1024x8_1_1_0_0_n_n none l r (constant (F := Ideal) S1024x8 .f32 0x00000000#32) (ix2 b c)
      = ∑ h : Fin 128, l (ix2 b h) * r (ix2 c h) :=
  MatmulNT.matmul_zero_at dot_S1024x128_S8x128_S1024x8_1_1_0_0_n_n rfl rfl topdot_lhs_0 topdot_lhs_1 topdot_rhs_0 topdot_rhs_1 none l r b c

/-- The within-class product at (b, k): `∑ₕ l[b, h] · r[k, h]`. -/
theorem botdot_at (l : FVec Ideal S1024x128 .bf16) (r : FVec Ideal S320x128 .bf16) (b : Fin 1024) (k : Fin 320) :
    matmul dot_S1024x128_S320x128_S1024x320_1_1_0_0_n_n none l r (constant (F := Ideal) S1024x320 .f32 0x00000000#32) (ix2 b k)
      = ∑ h : Fin 128, l (ix2 b h) * r (ix2 k h) :=
  MatmulNT.matmul_zero_at dot_S1024x128_S320x128_S1024x320_1_1_0_0_n_n rfl rfl botdot_lhs_0 botdot_lhs_1 botdot_rhs_0 botdot_rhs_1 none l r b k

/-! ## A column vector flattened -/

/-- An [a × 1] column cast to a vector of length a reads, at i, the column's entry (i, 0). -/
theorem shapeCast_col_flat_apply {α : Type} {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-! ## The two computed values at an entry -/

/-- The bias column laid over the rows: flattened, given a leading unit axis, broadcast down the 1024 rows; at (b, c) it
    is the column's entry (c, 0). -/
theorem topBias_at (v6 : Vec Ideal S8x1 .f32) (b : Fin 1024) (c : Fin 8) :
    broadcastTo S1024x8 (shapeCast S1x8 (shapeCast S8 (shapeCast S8x1 v6 shapeCasts_S8x1_S8x1) shapeCasts_S8x1_S8) shapeCasts_S8_S1x8) broadcasts_S1x8_S1024x8 (ix2 b c)
      = v6 (ix2 c (0 : Fin 1)) := by
  rw [shapeCast_self]
  refine (broadcastTo_1b_ab_apply _ broadcasts_S1x8_S1024x8 b c).trans ?_
  refine (shapeCast_a_1a_apply _ shapeCasts_S8_S1x8 (0 : Fin 1) c).trans ?_
  exact shapeCast_col_flat_apply v6 shapeCasts_S8x1_S8 c

/-- The class logits the body forms at one grid point: T[b, c] = ∑ₕ x[b, h] · w[c, h] + β[c, 0]. -/
theorem classLogits_at (v0 : Vec Ideal S1024x128 .f32) (v2 : Vec Ideal S8x128 .f32) (v6 : Vec Ideal S8x1 .f32) (b : Fin 1024) (c : Fin 8) :
    k0_pay6 (F := Ideal) v0 v2 v6 (ix2 b c) = (∑ h : Fin 128, v0 (ix2 b h) * v2 (ix2 c h)) + v6 (ix2 c (0 : Fin 1)) := by
  unfold k0_pay6 k0_pay5
  show matmul dot_S1024x128_S8x128_S1024x8_1_1_0_0_n_n none (truncf .bf16 v0 bitsLt_bf16_f32) (truncf .bf16 (shapeCast S8x128 v2 shapeCasts_S8x128_S8x128) bitsLt_bf16_f32) (constant (F := Ideal) S1024x8 .f32 0x00000000#32) (ix2 b c)
      + broadcastTo S1024x8 (shapeCast S1x8 (shapeCast S8 (shapeCast S8x1 v6 shapeCasts_S8x1_S8x1) shapeCasts_S8x1_S8) shapeCasts_S8_S1x8) broadcasts_S1x8_S1024x8 (ix2 b c) = _
  rw [topdot_at, topBias_at, shapeCast_self]
  rfl

/-- The bias row laid over the rows; at (b, k) it is the row's entry (0, k). -/
theorem botBias_at (v15 : Vec Ideal S1x320 .f32) (b : Fin 1024) (k : Fin 320) :
    broadcastTo S1024x320 (shapeCast S1x320 v15 shapeCasts_S1x320_S1x320) broadcasts_S1x320_S1024x320 (ix2 b k)
      = v15 (ix2 (0 : Fin 1) k) := by
  rw [shapeCast_self]
  exact broadcastTo_1b_ab_apply _ broadcasts_S1x320_S1024x320 b k

/-- The within-class logits the body forms at one grid point: U[b, k] = ∑ₕ x[b, h] · u[k, h] + γ[0, k]. -/
theorem withinLogits_at (v0 : Vec Ideal S1024x128 .f32) (v12 : Vec Ideal S320x128 .f32) (v15 : Vec Ideal S1x320 .f32) (b : Fin 1024) (k : Fin 320) :
    k0_pay7 (F := Ideal) v0 v12 v15 (ix2 b k) = (∑ h : Fin 128, v0 (ix2 b h) * v12 (ix2 k h)) + v15 (ix2 (0 : Fin 1) k) := by
  unfold k0_pay7 k0_pay5
  show matmul dot_S1024x128_S320x128_S1024x320_1_1_0_0_n_n none (truncf .bf16 v0 bitsLt_bf16_f32) (truncf .bf16 v12 bitsLt_bf16_f32) (constant (F := Ideal) S1024x320 .f32 0x00000000#32) (ix2 b k)
      + broadcastTo S1024x320 (shapeCast S1x320 v15 shapeCasts_S1x320_S1x320) broadcasts_S1x320_S1024x320 (ix2 b k) = _
  rw [botdot_at, botBias_at]
  rfl

end Cert.KernelIdeal.Body

end
-- ==== Proof.Spec.lean ====
/-
  The specification: hierarchical-softmax logits as one function of the five argument arrays.

  Token `n` of the 102400 belongs to class `n / 320` and sits at position `n % 320` inside its class. The logit of
  batch row `b` at token `n` is the class logit plus the within-class logit,

      (∑ₕ x[b, h] · topW[h, n / 320] + topB[n / 320]) + (∑ₕ x[b, h] · botW[n % 320, h] + botB[n % 320]),

  on the extended reals, the two bias additions and the final addition grouped as written. Both programs compute exactly
  this grouping, so no law beyond the definitions of the operations is needed and finiteness of the inputs is never used.
-/
import Idealize.ShloMosaic.PureOps.Ideal
import Idealize.ShloMosaic.Lib.ValueIdx

noncomputable section

namespace Cert.Spec

open Idealize.ShloMosaic Idealize.ShloMosaic.ValueIdx

/-- The class of token `n`. -/
abbrev cls (n : Fin 102400) : Fin 320 := ⟨n.val / 320, by have := n.isLt; omega⟩
/-- The position of token `n` inside its class. -/
abbrev pos (n : Fin 102400) : Fin 320 := ⟨n.val % 320, Nat.mod_lt _ (by decide)⟩

/-- The class logit of row `b` for class `c`: `∑ₕ x[b, h] · topW[h, c] + topB[c]`. -/
def top (x : FVec Ideal (⟨2, ![1024, 128]⟩ : Shape) .f32) (tw : FVec Ideal (⟨2, ![128, 320]⟩ : Shape) .f32)
    (tb : FVec Ideal (⟨1, ![320]⟩ : Shape) .f32) (b : Fin 1024) (c : Fin 320) : EReal :=
  (∑ h : Fin 128, x (ix2 b h) * tw (ix2 h c)) + tb (ix1 c)

/-- The within-class logit of row `b` at position `k`: `∑ₕ x[b, h] · botW[k, h] + botB[k]`. -/
def bottom (x : FVec Ideal (⟨2, ![1024, 128]⟩ : Shape) .f32) (bw : FVec Ideal (⟨2, ![320, 128]⟩ : Shape) .f32)
    (bb : FVec Ideal (⟨1, ![320]⟩ : Shape) .f32) (b : Fin 1024) (k : Fin 320) : EReal :=
  (∑ h : Fin 128, x (ix2 b h) * bw (ix2 k h)) + bb (ix1 k)

/-- The logits: at (b, n) the class logit of n's class plus the within-class logit of n's position. -/
def logits (x : FVec Ideal (⟨2, ![1024, 128]⟩ : Shape) .f32) (tw : FVec Ideal (⟨2, ![128, 320]⟩ : Shape) .f32)
    (tb : FVec Ideal (⟨1, ![320]⟩ : Shape) .f32) (bw : FVec Ideal (⟨2, ![320, 128]⟩ : Shape) .f32)
    (bb : FVec Ideal (⟨1, ![320]⟩ : Shape) .f32) : FVec Ideal (⟨2, ![1024, 102400]⟩ : Shape) .f32 :=
  fun j => top x tw tb (j 0) (cls (j 1)) + bottom x bw bb (j 0) (pos (j 1))

end Cert.Spec

end
-- ==== Proof.KernelLogits.lean ====
/-
  The kernel computes the specified logits.

  The kernel walks 40 grid points; point `t` owns classes 8t … 8t+7, that is the 2560 columns
  [2560·t, 2560·t + 2560) of the [1024 × 102400] result. Before the region the host transposes the class weights
  ([128 × 320] → [320 × 128]) and views the two bias vectors as a column [320 × 1] and a row [1 × 320]. At point `t`
  the body sees the whole activations, rows 8t … 8t+7 of the transposed class weights and of the bias column, the
  whole within-class weights and the bias row, and leaves in its [1024 × 2560] block, at (b, n),

      T[b, n / 320] + U[b, n % 320]

  with T the eight class logits and U the 320 within-class logits of row b (the body's two computed values). Read
  back through the host's re-layouts, class n / 320 of the block is class (2560·t + n) / 320 of the whole array and
  position n % 320 is (2560·t + n) % 320, so the block is the block of the specified logits; the 40 blocks tile the
  array, so the array ends holding the specified logits.
-/
import proofs.«181187_j18133351924188_1_alg».proof.Proof.Gen.KernelIdeal.Value
import proofs.«181187_j18133351924188_1_alg».proof.Proof.KernelBody
import proofs.«181187_j18133351924188_1_alg».proof.Proof.Spec
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.Logits

open Cert.KernelIdeal Cert.KernelIdeal.Gen Cert.KernelIdeal.Value Cert.KernelIdeal.Body
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-! ## The arrays the host prepares before the region -/

/-- The class weights as the region finds them: the argument transposed. -/
theorem topWT_eq (c : Dev nD) : (V m c main_v0 : S320x128.Idx → EReal)
    = transpose S320x128 [1, 0] (m ((c : Thread nD τ).loc main_arg1)) transposes_S128x320_S320x128_1_0 := by
  dsimp only [Gen.V, Gen.hostOps0]; after_results <;> rfl

/-- The class biases as the region finds them: the argument viewed as a column. -/
theorem topBcol_eq (c : Dev nD) : (V m c main_v1 : S320x1.Idx → EReal)
    = shapeCast S320x1 (m ((c : Thread nD τ).loc main_arg2)) shapeCasts_S320_S320x1 := by
  dsimp only [Gen.V, Gen.hostOps0]; after_results <;> rfl

/-- The within-class biases as the region finds them: the argument viewed as a row. -/
theorem botBrow_eq (c : Dev nD) : (V m c main_v2 : S1x320.Idx → EReal)
    = shapeCast S1x320 (m ((c : Thread nD τ).loc main_arg4)) shapeCasts_S320_S1x320 := by
  dsimp only [Gen.V, Gen.hostOps0]; after_results <;> rfl

/-- A vector of length a viewed as an [a × 1] column reads, at (i, 0), the vector at i. -/
theorem shapeCast_flat_col_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-! ## Where each window's block sits at point `t` -/

/-- The printed index maps over the grid: the activations, the within-class weights and the bias row stay at block
    (0, 0); the class weights and the bias column move down one block of eight rows per point; the result moves right
    one block of 2560 columns per point. -/
theorem blockIndex : ∀ t : Fin cfg0.N,
    win0_0.index t (0 : Fin 2) = 0 ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = t.val :=
  (by decide +kernel : ∀ t : Fin grid0.N, _)

theorem point_lt (t : Fin cfg0.N) : t.val < 40 := Nat.lt_of_lt_of_eq t.isLt N_0

/-- The activations' block at any point is the whole argument. -/
theorem actBlock_at (c : Dev nD) (t : Fin cfg0.N) (b : Fin 1024) (h : Fin 128) :
    iblk m c 0 t (ix2 b h) = m ((c : Thread nD τ).loc main_arg0) (ix2 b h) := by
  obtain ⟨e00, e01, -⟩ := blockIndex t
  show V m c main_arg0 (((cfg0.win 0).blk t).view.emb (ix2 b h)) = _
  rw [V_main_arg0]
  congr 1
  funext a; apply Fin.ext
  match a with
  | ⟨0, _⟩ => show win0_0.index t (0 : Fin 2) * 1024 + 1 * b.val = b.val; rw [e00]; omega
  | ⟨1, _⟩ => show win0_0.index t (1 : Fin 2) * 128 + 1 * h.val = h.val; rw [e01]; omega

/-- The class weights' block at point t, row r, is class 8t + r of the argument, read transposed. -/
theorem classWBlock_at (c : Dev nD) (t : Fin cfg0.N) (r : Fin 8) (h : Fin 128) :
    iblk m c 1 t (ix2 r h) = m ((c : Thread nD τ).loc main_arg1) (ix2 h ⟨t.val * 8 + r.val, by have := point_lt t; omega⟩) := by
  obtain ⟨-, -, e10, e11, -⟩ := blockIndex t
  have ht := point_lt t
  show V m c main_v0 (((cfg0.win 1).blk t).view.emb (ix2 r h)) = _
  rw [topWT_eq]
  refine Eq.trans ?_ (transpose_ix2_apply (m ((c : Thread nD τ).loc main_arg1)) transposes_S128x320_S320x128_1_0 ⟨t.val * 8 + r.val, by omega⟩ h)
  congr 1
  funext a; apply Fin.ext
  match a with
  | ⟨0, _⟩ => show win0_1.index t (0 : Fin 2) * 8 + 1 * r.val = t.val * 8 + r.val; rw [e10]; omega
  | ⟨1, _⟩ => show win0_1.index t (1 : Fin 2) * 128 + 1 * h.val = h.val; rw [e11]; omega

/-- The class biases' block at point t, row r, is the bias of class 8t + r. -/
theorem classBBlock_at (c : Dev nD) (t : Fin cfg0.N) (r : Fin 8) :
    iblk m c 2 t (ix2 r (0 : Fin 1)) = m ((c : Thread nD τ).loc main_arg2) (ix1 ⟨t.val * 8 + r.val, by have := point_lt t; omega⟩) := by
  obtain ⟨-, -, -, -, e20, e21, -⟩ := blockIndex t
  have ht := point_lt t
  show V m c main_v1 (((cfg0.win 2).blk t).view.emb (ix2 r (0 : Fin 1))) = _
  rw [topBcol_eq]
  refine Eq.trans ?_ (shapeCast_flat_col_apply (m ((c : Thread nD τ).loc main_arg2)) shapeCasts_S320_S320x1 ⟨t.val * 8 + r.val, by omega⟩ (0 : Fin 1))
  congr 1
  funext a; apply Fin.ext
  match a with
  | ⟨0, _⟩ => show win0_2.index t (0 : Fin 2) * 8 + 1 * r.val = t.val * 8 + r.val; rw [e20]; omega
  | ⟨1, _⟩ => show win0_2.index t (1 : Fin 2) * 1 + 1 * 0 = 0; rw [e21]

/-- The within-class weights' block at any point is the whole argument. -/
theorem withinWBlock_at (c : Dev nD) (t : Fin cfg0.N) (k : Fin 320) (h : Fin 128) :
    iblk m c 3 t (ix2 k h) = m ((c : Thread nD τ).loc main_arg3) (ix2 k h) := by
  obtain ⟨-, -, -, -, -, -, e30, e31, -⟩ := blockIndex t
  show V m c main_arg3 (((cfg0.win 3).blk t).view.emb (ix2 k h)) = _
  rw [V_main_arg3]
  congr 1
  funext a; apply Fin.ext
  match a with
  | ⟨0, _⟩ => show win0_3.index t (0 : Fin 2) * 320 + 1 * k.val = k.val; rw [e30]; omega
  | ⟨1, _⟩ => show win0_3.index t (1 : Fin 2) * 128 + 1 * h.val = h.val; rw [e31]; omega

/-- The within-class biases' block at any point, column k, is the bias of position k. -/
theorem withinBBlock_at (c : Dev nD) (t : Fin cfg0.N) (k : Fin 320) :
    iblk m c 4 t (ix2 (0 : Fin 1) k) = m ((c : Thread nD τ).loc main_arg4) (ix1 k) := by
  obtain ⟨-, -, -, -, -, -, -, -, e40, e41, -⟩ := blockIndex t
  show V m c main_v2 (((cfg0.win 4).blk t).view.emb (ix2 (0 : Fin 1) k)) = _
  rw [botBrow_eq]
  refine Eq.trans ?_ (shapeCast_a_1a_apply (m ((c : Thread nD τ).loc main_arg4)) shapeCasts_S320_S1x320 (0 : Fin 1) k)
  congr 1
  funext a; apply Fin.ext
  match a with
  | ⟨0, _⟩ => show win0_4.index t (0 : Fin 2) * 1 + 1 * 0 = 0; rw [e40]
  | ⟨1, _⟩ => show win0_4.index t (1 : Fin 2) * 320 + 1 * k.val = k.val; rw [e41]; omega

/-! ## What the body leaves in its block -/

theorem zeroOffsets : (![0, 0] : Fin 2 → Nat) = fun _ => 0 := funext fun a => by fin_cases a <;> rfl

/-- The result block the body leaves, entry (b, n), from the five input blocks: the class logit of the block's class
    `n / 320` plus the within-class logit of position `n % 320`. -/
theorem block_at (x0 : Vec Ideal S1024x128 .f32) (x1 : Vec Ideal S8x128 .f32) (x2 : Vec Ideal S8x1 .f32)
    (x3 : Vec Ideal S320x128 .f32) (x4 : Vec Ideal S1x320 .f32) (b : Fin 1024) (n : Fin 2560) :
    out0_5 x0 x1 x2 x3 x4 (ix2 b n)
      = ((∑ h : Fin 128, x0 (ix2 b h) * x1 (ix2 (⟨n.val / 320, by have := n.isLt; omega⟩ : Fin 8) h)) + x2 (ix2 (⟨n.val / 320, by have := n.isLt; omega⟩ : Fin 8) (0 : Fin 1)))
        + ((∑ h : Fin 128, x0 (ix2 b h) * x3 (ix2 (⟨n.val % 320, Nat.mod_lt _ (by decide)⟩ : Fin 320) h)) + x4 (ix2 (0 : Fin 1) (⟨n.val % 320, Nat.mod_lt _ (by decide)⟩ : Fin 320))) := by
  unfold out0_5
  rw [canon5_eq]
  simp only [View.ld_unit_zero (S := S1024x128) zeroOffsets, View.ld_unit_zero (S := S8x128) zeroOffsets,
    View.ld_unit_zero (S := S8x1) zeroOffsets, View.ld_unit_zero (S := S320x128) zeroOffsets, View.ld_unit_zero (S := S1x320) zeroOffsets]
  show k0_pay6 (F := Ideal) x0 x1 x2 (ix5_0 (ix2 b n)) + k0_pay7 (F := Ideal) x0 x3 x4 (ix5_1 (ix2 b n)) = _
  have e0 : ix5_0 (ix2 b n) = ix2 b (⟨n.val / 320, by have := n.isLt; omega⟩ : Fin 8) := by
    funext a; match a with | ⟨0, _⟩ => rfl | ⟨1, _⟩ => rfl
  have e1 : ix5_1 (ix2 b n) = ix2 b (⟨n.val % 320, Nat.mod_lt _ (by decide)⟩ : Fin 320) := by
    funext a; match a with | ⟨0, _⟩ => rfl | ⟨1, _⟩ => rfl
  rw [e0, e1, classLogits_at, withinLogits_at]

/-! ## What each point writes back, and the array after the run -/

/-- The specified logits of the five arguments as core `c` holds them at launch. -/
abbrev result (c : Dev nD) : S1024x102400.Idx → EReal :=
  Cert.Spec.logits (m ((c : Thread nD τ).loc main_arg0)) (m ((c : Thread nD τ).loc main_arg1)) (m ((c : Thread nD τ).loc main_arg2))
    (m ((c : Thread nD τ).loc main_arg3)) (m ((c : Thread nD τ).loc main_arg4))

/-- WHAT POINT `t` WRITES BACK is block `t` of the specified logits. -/
theorem flushed_eq (c : Dev nD) (t : Fin cfg0.N) :
    (dats m 0 c).flushed 5 t = ((cfg0.win 5).blk t).view.read (Elt Ideal) (result m c) := by
  rw [flushed5]
  obtain ⟨-, -, -, -, -, -, -, -, -, -, e50, e51⟩ := blockIndex t
  have ht := point_lt t
  funext y
  have hy0 : (y 0).val < 1024 := (y 0).isLt
  have hy1 : (y 1).val < 2560 := (y 1).isLt
  -- the block index as a pair of coordinates
  have ey : (cfg0.win 5).xinj (grid0.coords t) y = ix2 (⟨(y 0).val, hy0⟩ : Fin 1024) (⟨(y 1).val, hy1⟩ : Fin 2560) := by
    funext a; match a with | ⟨0, _⟩ => rfl | ⟨1, _⟩ => rfl
  show out0_5 (iblk m c 0 t) (iblk m c 1 t) (iblk m c 2 t) (iblk m c 3 t) (iblk m c 4 t) ((cfg0.win 5).xinj (grid0.coords t) y)
    = result m c (((cfg0.win 5).blk t).view.emb y)
  rw [ey]
  refine (block_at (iblk m c 0 t) (iblk m c 1 t) (iblk m c 2 t) (iblk m c 3 t) (iblk m c 4 t) ⟨(y 0).val, hy0⟩ ⟨(y 1).val, hy1⟩).trans ?_
  simp only [actBlock_at, classWBlock_at, classBBlock_at, withinWBlock_at, withinBBlock_at]
  -- the array index under the block index: row y₀, column 2560·t + y₁
  have er : (((cfg0.win 5).blk t).view.emb y) 0 = (⟨(y 0).val, hy0⟩ : Fin 1024) := Fin.ext (by
    show win0_5.index t (0 : Fin 2) * 1024 + 1 * (y 0).val = (y 0).val; rw [e50]; omega)
  have ec : ((((cfg0.win 5).blk t).view.emb y) 1).val = t.val * 2560 + (y 1).val := by
    show win0_5.index t (1 : Fin 2) * 2560 + 1 * (y 1).val = _; rw [e51]; omega
  have ecls : Cert.Spec.cls ((((cfg0.win 5).blk t).view.emb y) 1) = (⟨t.val * 8 + (y 1).val / 320, by omega⟩ : Fin 320) :=
    Fin.ext (by show ((((cfg0.win 5).blk t).view.emb y) 1).val / 320 = t.val * 8 + (y 1).val / 320; rw [ec]; omega)
  have epos : Cert.Spec.pos ((((cfg0.win 5).blk t).view.emb y) 1) = (⟨(y 1).val % 320, Nat.mod_lt _ (by decide)⟩ : Fin 320) :=
    Fin.ext (by show ((((cfg0.win 5).blk t).view.emb y) 1).val % 320 = (y 1).val % 320; rw [ec]; omega)
  show _ = Cert.Spec.top _ _ _ ((((cfg0.win 5).blk t).view.emb y) 0) (Cert.Spec.cls ((((cfg0.win 5).blk t).view.emb y) 1))
      + Cert.Spec.bottom _ _ _ ((((cfg0.win 5).blk t).view.emb y) 0) (Cert.Spec.pos ((((cfg0.win 5).blk t).view.emb y) 1))
  rw [er, ecls, epos]
  rfl

/-- An index of the array is in point `t`'s block iff each coordinate is in the block's range on its axis. -/
theorem mem_block (t : Fin cfg0.N) (i : S1024x102400.Idx) :
    i ∈ ((cfg0.win 5).blk t).view.set ↔ ∀ a : Fin 2, win0_5.index t a * S1024x2560.size a ≤ (i a).val ∧ (i a).val < win0_5.index t a * S1024x2560.size a + S1024x2560.size a := by
  show i ∈ ((View.whole main_v3).slice (win0_5.rect t)).set ↔ _
  rw [View.set_slice_whole, Rect.mem_set_unit]
  exact Iff.rfl

/-- The 40 blocks tile the array: column n lies in the block of point n / 2560. -/
theorem covered (i : S1024x102400.Idx) : ∃ t : Fin cfg0.N, (cfg0.win 5).flush t = true ∧ i ∈ ((cfg0.win 5).blk t).view.set := by
  have hi0 : (i 0).val < 1024 := (i 0).isLt
  have hi1 : (i 1).val < 102400 := (i 1).isLt
  obtain ⟨t, ht⟩ : ∃ t : Fin cfg0.N, t.val = (i 1).val / 2560 :=
    ⟨⟨(i 1).val / 2560, Nat.lt_of_lt_of_eq (by omega : (i 1).val / 2560 < 40) N_0.symm⟩, rfl⟩
  obtain ⟨-, -, -, -, -, -, -, -, -, -, e50, e51⟩ := blockIndex t
  refine ⟨t, flush0_5 t, ?_⟩
  rw [mem_block]
  intro a
  match a with
  | ⟨0, _⟩ => show win0_5.index t (0 : Fin 2) * 1024 ≤ (i 0).val ∧ (i 0).val < win0_5.index t (0 : Fin 2) * 1024 + 1024; rw [e50]; omega
  | ⟨1, _⟩ => show win0_5.index t (1 : Fin 2) * 2560 ≤ (i 1).val ∧ (i 1).val < win0_5.index t (1 : Fin 2) * 2560 + 2560; rw [e51]; omega

/-- THE ARRAY after the run holds the specified logits. -/
theorem final (c : Dev nD) : (dats m 0 c).arrAt 5 cfg0.N = result m c :=
  (dats m 0 c).arrAt_eq_of_cover 5 (result m c) (fun t _ => flushed_eq m c t) covered

/-- The kernel's run, read: the result array at the specified logits of the arguments, the arguments unchanged. -/
theorem run : θ_run defs (onTc (τ := τ) (main (F := Ideal))) ⟨m, fun _ => 0, ρ⟩ fun r => ∀ c : Dev nD,
      r.2.mem ((c : Thread nD τ).loc main_v3) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (run_blocks m ρ)

end Cert.KernelIdeal.Logits

end
-- ==== Proof.RefLogits.lean ====
/-
  The reference computes the specified logits.

  The reference forms the class logits `x · topW + topB` [1024 × 320] and the within-class logits
  `x · botWᵀ + botB[arange 320]` [1024 × 320], adds them over a [1024 × 320 × 320] box — class along the second axis,
  position along the third — and flattens the last two axes, so flat token `n` is class `n / 320`, position `n % 320`.
  Reading its operations one at a time: each product is the sum over the 128 hidden coordinates; the transposed
  weights read back at swapped coordinates; the broadcasts keep the coordinates they name; and the bias lookup
  `botB[arange 320]` is a take whose index at position k is k itself — never negative, so the wrap-around branch is
  not taken, and inside the table, so the clamp leaves it — hence it reads `botB[k]`.
-/
import proofs.«181187_j18133351924188_1_alg».proof.Proof.Gen.ReferenceIdeal.Read
import proofs.«181187_j18133351924188_1_alg».proof.Proof.Spec
import Idealize.ShloMosaic.Lib.StableHlo.Predicate

noncomputable section

namespace Cert.ReferenceIdeal.Logits

open Cert.ReferenceIdeal Cert.ReferenceIdeal.Gen Cert.ReferenceIdeal.Read Idealize.ShloMosaic Idealize.ShloMosaic.ValueIdx
open Idealize.ShloMosaic.StableHlo.Predicate

/-- The lookup index at position p is the word p: the iota is non-negative, so the select keeps it. -/
theorem lookupIndex_at (p : Fin 320) : val_main_v12 (F := Ideal) (ixP p) = BitVec.ofNat 32 p.val := by
  rw [val_main_v12_apply, val_main_v11_apply, val_main_v8_apply, val_main_v7_apply, val_main_c_apply, val_main_v0_apply]
  have hp : p.val < 320 := p.isLt
  have hlt : ¬ IntOp.cmpi .slt (BitVec.ofNat 32 ((idx_main_v12 (ixP p)) 0).val) 0#32 = 1#1 := by
    rw [slt_iff_toNat (by simp [BitVec.toNat_ofNat]; show p.val % 4294967296 < 2147483648; omega) (by simp)]
    simp
  rw [show Scalar.select (IntOp.cmpi .slt (BitVec.ofNat 32 ((idx_main_v12 (ixP p)) 0).val) 0#32) (val_main_v10 (F := Ideal) (idx_main_v12 (ixP p))) (BitVec.ofNat 32 ((idx_main_v12 (ixP p)) 0).val) = BitVec.ofNat 32 ((idx_main_v12 (ixP p)) 0).val from if_neg hlt]

/-- The bias lookup reads the table at its own position: `botB[arange 320][k] = botB[k]`. -/
theorem lookup_at (x4 : FVec Ideal S320 .f32) (p : Fin 320) :
    val_main_v13 (F := Ideal) x4 (Shape.Idx.ofFin p) = x4 (Shape.Idx.ofFin p) := by
  unfold val_main_v13
  rw [gather_take gather_S320_S320x1_S320_n_0_n_n_0_1_1 rfl rfl rfl rfl x4 (val_main_v12 (F := Ideal)) p (by decide)]
  congr 2
  apply Fin.ext
  have hp : p.val < 320 := p.isLt
  show min (BitVec.toInt (val_main_v12 (F := Ideal) (ixP p))).toNat (320 - 1) = p.val
  rw [lookupIndex_at, toInt_ofNat_small p.val (by omega)]
  simp only [Int.toNat_natCast]
  omega

/-- THE REFERENCE'S RESULT is the specified logits of its five arguments. -/
theorem result_eq (x0 : FVec Ideal S1024x128 .f32) (x1 : FVec Ideal S128x320 .f32) (x2 : FVec Ideal S320 .f32)
    (x3 : FVec Ideal S320x128 .f32) (x4 : FVec Ideal S320 .f32) :
    val_main_v22 (F := Ideal) x0 x1 x2 x3 x4 = Cert.Spec.logits x0 x1 x2 x3 x4 := by
  funext i
  have h0 : (i 0).val < 1024 := (i 0).isLt
  have h1 : (i 1).val < 102400 := (i 1).isLt
  rw [val_main_v22_apply, val_main_v21_apply, val_main_v19_apply, val_main_v17_apply, val_main_v4_apply,
    val_main_v20_apply, val_main_v18_apply, val_main_v16_apply, val_main_v1_apply, val_main_v3_apply, val_main_v2_apply,
    val_main_v6_apply, val_main_v15_apply, val_main_v14_apply]
  -- the two [1024 × 320] indices the flat index (b, n) reads: (b, n / 320) and (b, n % 320)
  have eT : idx_main_v17 (idx_main_v19 (idx_main_v22 i)) = ix2 (i 0) (Cert.Spec.cls (i 1)) := by
    funext a; apply Fin.ext
    match a with
    | ⟨0, _⟩ => show ((i 0).val * 102400 + (i 1).val) / 102400 = (i 0).val; omega
    | ⟨1, _⟩ => show ((i 0).val * 102400 + (i 1).val) / 320 % 320 = (i 1).val / 320; omega
  have eU : idx_main_v18 (idx_main_v20 (idx_main_v22 i)) = ix2 (i 0) (Cert.Spec.pos (i 1)) := by
    funext a; apply Fin.ext
    match a with
    | ⟨0, _⟩ => show ((i 0).val * 102400 + (i 1).val) / 102400 = (i 0).val; omega
    | ⟨1, _⟩ => show ((i 0).val * 102400 + (i 1).val) % 320 = (i 1).val % 320; omega
  rw [eT, eU]
  have eb2 : idx_main_v2 (idx_main_v3 (ix2 (i 0) (Cert.Spec.cls (i 1)))) = ix1 (Cert.Spec.cls (i 1)) := by
    funext a; match a with | ⟨0, _⟩ => rfl
  have eb4 : idx_main_v14 (idx_main_v15 (ix2 (i 0) (Cert.Spec.pos (i 1)))) = Shape.Idx.ofFin (Cert.Spec.pos (i 1)) := by
    funext a; match a with | ⟨0, _⟩ => rfl
  have eb4' : (Shape.Idx.ofFin (Cert.Spec.pos (i 1)) : S320.Idx) = ix1 (Cert.Spec.pos (i 1)) := by
    funext a; match a with | ⟨0, _⟩ => rfl
  rw [eb2, eb4, lookup_at, eb4']
  have sT : ∀ k : Fin 128, x0 (lidx_main_v1 (ix2 (i 0) (Cert.Spec.cls (i 1))) k) * x1 (ridx_main_v1 (ix2 (i 0) (Cert.Spec.cls (i 1))) k)
      = x0 (ix2 (i 0) k) * x1 (ix2 k (Cert.Spec.cls (i 1))) := fun k => by
    congr 2
    · funext a; match a with | ⟨0, _⟩ => rfl | ⟨1, _⟩ => rfl
    · funext a; match a with | ⟨0, _⟩ => rfl | ⟨1, _⟩ => rfl
  have sU : ∀ k : Fin 128, x0 (lidx_main_v6 (ix2 (i 0) (Cert.Spec.pos (i 1))) k) * val_main_v5 (F := Ideal) x3 (ridx_main_v6 (ix2 (i 0) (Cert.Spec.pos (i 1))) k)
      = x0 (ix2 (i 0) k) * x3 (ix2 (Cert.Spec.pos (i 1)) k) := fun k => by
    rw [val_main_v5_apply]
    congr 2
    · funext a; match a with | ⟨0, _⟩ => rfl | ⟨1, _⟩ => rfl
    · funext a; match a with | ⟨0, _⟩ => rfl | ⟨1, _⟩ => rfl
  rw [Finset.sum_congr rfl (fun k _ => sT k), Finset.sum_congr rfl (fun k _ => sU k)]
  rfl

end Cert.ReferenceIdeal.Logits

end
-- ==== Proof.lean ====
/-
  Hierarchical-softmax logits: a Pallas kernel against its jnp reference, over the extended reals.

  Both programs map activations x [1024 × 128], class weights topW [128 × 320] and biases topB [320], within-class
  weights botW [320 × 128] and biases botB [320] to the [1024 × 102400] array whose entry (b, n) is

      (∑ₕ x[b, h] · topW[h, n / 320] + topB[n / 320]) + (∑ₕ x[b, h] · botW[n % 320, h] + botB[n % 320]).

  The kernel tiles the 320 classes eight at a time over 40 grid points and, per point, multiplies against eight rows of
  the transposed class weights and against the within-class weights (both products contracting the operands' second
  axes, operands narrowed to bf16 — the identity on the extended reals), adds the biases, and writes eight 320-wide
  slabs (Proof/KernelBody.lean, Proof/KernelLogits.lean). The reference forms both [1024 × 320] logit matrices whole,
  looks the within-class bias up through `arange 320` (an identity take), adds them over a [1024 × 320 × 320] box and
  flattens it (Proof/RefLogits.lean). Both add in the same grouping, so the two results are the same function
  (Proof/Spec.lean) by the definitions of the operations alone: the inputs' finiteness is not used.

  The idealization rewrote nothing, so `preserves` is trivial; the three frames are the generated ones.
-/
import proofs.«181187_j18133351924188_1_alg».proof.Defs
import proofs.«181187_j18133351924188_1_alg».proof.Proof.Gen.Kernel
import proofs.«181187_j18133351924188_1_alg».proof.Proof.Gen.Kernel.Skeleton
import proofs.«181187_j18133351924188_1_alg».proof.Proof.Gen.Kernel.Launch
import proofs.«181187_j18133351924188_1_alg».proof.Proof.Gen.Kernel.Points
import proofs.«181187_j18133351924188_1_alg».proof.Proof.Gen.Kernel.Frame
import proofs.«181187_j18133351924188_1_alg».proof.Proof.Gen.KernelIdeal
import proofs.«181187_j18133351924188_1_alg».proof.Proof.Gen.KernelIdeal.Skeleton
import proofs.«181187_j18133351924188_1_alg».proof.Proof.Gen.KernelIdeal.Launch
import proofs.«181187_j18133351924188_1_alg».proof.Proof.Gen.KernelIdeal.Points
import proofs.«181187_j18133351924188_1_alg».proof.Proof.Gen.KernelIdeal.Frame
import proofs.«181187_j18133351924188_1_alg».proof.Proof.Gen.ReferenceIdeal
import proofs.«181187_j18133351924188_1_alg».proof.Proof.Gen.Pre_finite_inputs
import proofs.«181187_j18133351924188_1_alg».proof.Proof.Gen.KernelIdeal.Value
import proofs.«181187_j18133351924188_1_alg».proof.Proof.Gen.ReferenceIdeal.Run
import proofs.«181187_j18133351924188_1_alg».proof.Proof.Gen.ReferenceIdeal.Read
import proofs.«181187_j18133351924188_1_alg».proof.Proof.KernelLogits
import proofs.«181187_j18133351924188_1_alg».proof.Proof.RefLogits
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference is a host program: its frame is its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on the five arguments both programs end with the result array at the specified logits of
    those arguments: the kernel's by its blocks tiling the array, the reference's by reading its operations in turn. -/
theorem algebraic : Cert.algebraic_KernelIdeal_ReferenceIdeal := by
  intro m ρ m' ρ' _ hagree
  refine ⟨fun c => Cert.KernelIdeal.Logits.result m c, Cert.KernelIdeal.Logits.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v22_eq, Cert.ReferenceIdeal.Logits.result_eq,
    (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
